-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S131072 : Shape := ⟨1, ![131072]⟩
abbrev S8x128x128 : Shape := ⟨3, ![8, 128, 128]⟩
abbrev S8x128 : Shape := ⟨2, ![8, 128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg1 : IVec S131072 32) (main_v13 : IVec S_ 1) (main_v15 : IVec S131072 1) (main_c_5 : IVec S_ 1) : IVec S_ 1 :=
  let main_v16 : IVec S_ 1 := (fun x v => Host.reduce IntOp.andi x v reducesTo_S131072_S_d0 h_S_) main_v15 main_c_5
  let main_v17 : IVec S_ 1 := andi main_v13 main_v16
  let main_c_6 : IVec S_ 32 := constantI S_ 32 8#32
  let main_v18 : IVec S131072 32 := broadcastInDim S131072 ![] bcast_S_S131072 main_c_6
  let main_v19 : IVec S131072 1 := cmpi .slt main_arg1 main_v18
  let main_c_7 : IVec S_ 1 := constantI S_ 1 1#1
  let main_v20 : IVec S_ 1 := (fun x v => Host.reduce IntOp.andi x v reducesTo_S131072_S_d0 h_S_) main_v19 main_c_7
  let main_v21 : IVec S_ 1 := andi main_v17 main_v20
  main_v21

def fn {F : FTy → Type} [FloatOps F] (main_arg0 : FVec F S131072x128 .f32) (main_arg1 : IVec S131072 32) (main_arg2 : FVec F S8x128x128 .f32) (main_arg3 : FVec F S8x128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S8x128x128 .f32 := Host.absf main_arg2
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  let main_v9 : FVec F S8x128 .f32 := Host.absf main_arg3
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_c_4 : IVec S_ 32 := constantI S_ 32 0#32
  let main_v14 : IVec S131072 32 := broadcastInDim S131072 ![] bcast_S_S131072 main_c_4
  let main_v15 : IVec S131072 1 := cmpi .sge main_arg1 main_v14
  let main_c_5 : IVec S_ 1 := constantI S_ 1 1#1
  fn_part1 (F := F) main_arg1 main_v13 main_v15 main_c_5
-- ==== Kernel.lean ====
abbrev S131072x128 : Shape := ⟨2, ![131072, 128]⟩
abbrev S131072 : Shape := ⟨1, ![131072]⟩
abbrev S8x128x128 : Shape := ⟨3, ![8, 128, 128]⟩
abbrev S8x128 : Shape := ⟨2, ![8, 128]⟩
abbrev S131072x1 : Shape := ⟨2, ![131072, 1]⟩
abbrev S128x8x128 : Shape := ⟨3, ![128, 8, 128]⟩
abbrev S128x1024 : Shape := ⟨2, ![128, 1024]⟩
abbrev S4096x128 : Shape := ⟨2, ![4096, 128]⟩
abbrev S4096x1 : Shape := ⟨2, ![4096, 1]⟩
abbrev S128x512 : Shape := ⟨2, ![128, 512]⟩
abbrev S4096x512 : Shape := ⟨2, ![4096, 512]⟩
abbrev S1x128 : Shape := ⟨2, ![1, 128]⟩

abbrev nBuf : Space → Nat
  | .hbm => 9
  | .vmem => 8
  | .smem => 0
  | _ => 0

abbrev bufTy : (tb : Table) → Fin (tcTables nBuf tb) → BufTy
  | .hbm, ⟨0, _⟩ => ⟨S131072x128, .f32⟩
  | .hbm, ⟨1, _⟩ => ⟨S131072, .i32⟩
  | .hbm, ⟨2, _⟩ => ⟨S8x128x128, .f32⟩
  | .hbm, ⟨3, _⟩ => ⟨S8x128, .f32⟩
  | .hbm, ⟨4, _⟩ => ⟨S131072x1, .i32⟩
  | .hbm, ⟨5, _⟩ => ⟨S128x8x128, .f32⟩
  | .hbm, ⟨6, _⟩ => ⟨S128x1024, .f32⟩
  | .hbm, ⟨7, _⟩ => ⟨S128x1024, .bf16⟩
  | .hbm, ⟨8, _⟩ => ⟨S131072x128, .f32⟩
  | .local _ .vmem, ⟨0, _⟩ => ⟨S4096x128, .f32⟩
  | .local _ .vmem, ⟨1, _⟩ => ⟨S4096x128, .f32⟩
  | .local _ .vmem, ⟨2, _⟩ => ⟨S4096x1, .i32⟩
  | .local _ .vmem, ⟨3, _⟩ => ⟨S4096x1, .i32⟩
  | .local _ .vmem, ⟨4, _⟩ => ⟨S128x1024, .bf16⟩
  | .local _ .vmem, ⟨5, _⟩ => ⟨S8x128, .f32⟩
  | .local _ .vmem, ⟨6, _⟩ => ⟨S4096x128, .f32⟩
  | .local _ .vmem, ⟨7, _⟩ => ⟨S4096x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S131072_S131072x1 : S131072.ShapeCasts S131072x1
  transposes_S8x128x128_S128x8x128_2_0_1 : S8x128x128.Transposes [2, 0, 1] S128x8x128
  shapeCasts_S128x8x128_S128x1024 : S128x8x128.ShapeCasts S128x1024
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S128x1024_S128x512_0_0 : ∀ a, (![0, 0] : Fin 2 → Nat) a + S128x512.size a ≤ S128x1024.size a
  h_S128x512 : 0 < S128x512.numel
  shapeCasts_S128x512_S128x512 : S128x512.ShapeCasts S128x512
  natLt_1_32 : 1 < 32
  slices_S4096x512_o0_0_S4096x128 : S4096x512.Slices ![0, 0] S4096x128
  broadcasts_S4096x1_S4096x128 : S4096x1.Broadcasts S4096x128
  inb_S8x128_S1x128_0_0 : ∀ a, (![0, 0] : Fin 2 → Nat) a + S1x128.size a ≤ S8x128.size a
  h_S1x128 : 0 < S1x128.numel
  broadcasts_S1x128_S4096x128 : S1x128.Broadcasts S4096x128
  shapeCasts_S4096x128_S4096x128 : S4096x128.ShapeCasts S4096x128
  slices_S4096x512_o0_128_S4096x128 : S4096x512.Slices ![0, 128] S4096x128
  inb_S8x128_S1x128_1_0 : ∀ a, (![1, 0] : Fin 2 → Nat) a + S1x128.size a ≤ S8x128.size a
  slices_S4096x512_o0_256_S4096x128 : S4096x512.Slices ![0, 256] S4096x128
  inb_S8x128_S1x128_2_0 : ∀ a, (![2, 0] : Fin 2 → Nat) a + S1x128.size a ≤ S8x128.size a
  slices_S4096x512_o0_384_S4096x128 : S4096x512.Slices ![0, 384] S4096x128
  inb_S8x128_S1x128_3_0 : ∀ a, (![3, 0] : Fin 2 → Nat) a + S1x128.size a ≤ S8x128.size a
  inb_S128x1024_S128x512_0_512 : ∀ a, (![0, 512] : Fin 2 → Nat) a + S128x512.size a ≤ S128x1024.size a
  inb_S8x128_S1x128_4_0 : ∀ a, (![4, 0] : Fin 2 → Nat) a + S1x128.size a ≤ S8x128.size a
  inb_S8x128_S1x128_5_0 : ∀ a, (![5, 0] : Fin 2 → Nat) a + S1x128.size a ≤ S8x128.size a
  inb_S8x128_S1x128_6_0 : ∀ a, (![6, 0] : Fin 2 → Nat) a + S1x128.size a ≤ S8x128.size a
  inb_S8x128_S1x128_7_0 : ∀ a, (![7, 0] : Fin 2 → Nat) a + S1x128.size a ≤ S8x128.size a
  dot_S4096x128_S128x512_S4096x512_1_0_0_1_n_n_wf : DotDims.WF S4096x128 S128x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .i32 = 32 ∨ (Rect.block (s := S131072x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .bf16 = 32 ∨ (Rect.block (s := S128x1024) S128x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S131072x128.size a
  hwx0_4 : ∀ i : grid0.Coords, EltTy.bits .f32 = 32 ∨ (Rect.block (s := S131072x128) S4096x128.size (cc0_transform_4 i) (hinb0_4 i)).WholeWords (EltTy.packing .f32)

variable [Facts₀]

def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x128 : Shape := ⟨2, ![131072, 128]⟩
abbrev S131072 : Shape := ⟨1, ![131072]⟩
abbrev S8x128x128 : Shape := ⟨3, ![8, 128, 128]⟩
abbrev S8x128 : Shape := ⟨2, ![8, 128]⟩
abbrev S131072x8x128 : Shape := ⟨3, ![131072, 8, 128]⟩
abbrev S131072x1x1 : Shape := ⟨3, ![131072, 1, 1]⟩
abbrev S_ : Shape := ⟨0, ![]⟩
abbrev S1 : Shape := ⟨1, ![1]⟩
abbrev S1x1x1 : Shape := ⟨3, ![1, 1, 1]⟩
abbrev S131072x1 : Shape := ⟨2, ![131072, 1]⟩
abbrev S131072x1x128 : Shape := ⟨3, ![131072, 1, 128]⟩

abbrev nBuf : Space → Nat
  | .hbm => 39
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072, .i32⟩
  | .hbm, ⟨2, _⟩ => ⟨S8x128x128, .f32⟩
  | .hbm, ⟨3, _⟩ => ⟨S8x128, .f32⟩
  | .hbm, ⟨4, _⟩ => ⟨S131072x8x128, .f32⟩
  | .hbm, ⟨5, _⟩ => ⟨S131072x1x1, .i32⟩
  | .hbm, ⟨6, _⟩ => ⟨S_, .i32⟩
  | .hbm, ⟨7, _⟩ => ⟨S131072x1x1, .i32⟩
  | .hbm, ⟨8, _⟩ => ⟨S131072x1x1, .i1⟩
  | .hbm, ⟨9, _⟩ => ⟨S_, .i32⟩
  | .hbm, ⟨10, _⟩ => ⟨S131072x1x1, .i32⟩
  | .hbm, ⟨11, _⟩ => ⟨S131072x1x1, .i32⟩
  | .hbm, ⟨12, _⟩ => ⟨S131072x1x1, .i32⟩
  | .hbm, ⟨13, _⟩ => ⟨S1, .i32⟩
  | .hbm, ⟨14, _⟩ => ⟨S_, .i32⟩
  | .hbm, ⟨15, _⟩ => ⟨S131072x1x1, .i32⟩
  | .hbm, ⟨16, _⟩ => ⟨S131072x1x1, .i1⟩
  | .hbm, ⟨17, _⟩ => ⟨S1x1x1, .i32⟩
  | .hbm, ⟨18, _⟩ => ⟨S131072x1x1, .i32⟩
  | .hbm, ⟨19, _⟩ => ⟨S131072x1x1, .i1⟩
  | .hbm, ⟨20, _⟩ => ⟨S131072x1x1, .i1⟩
  | .hbm, ⟨21, _⟩ => ⟨S_, .i1⟩
  | .hbm, ⟨22, _⟩ => ⟨S131072x1, .i1⟩
  | .hbm, ⟨23, _⟩ => ⟨S131072x1x128, .f32⟩
  | .hbm, ⟨24, _⟩ => ⟨S131072x1x128, .i1⟩
  | .hbm, ⟨25, _⟩ => ⟨S_, .f32⟩
  | .hbm, ⟨26, _⟩ => ⟨S131072x1x128, .f32⟩
  | .hbm, ⟨27, _⟩ => ⟨S131072x1x128, .f32⟩
  | .hbm, ⟨28, _⟩ => ⟨S131072x128, .f32⟩
  | .hbm, ⟨29, _⟩ => ⟨S_, .i32⟩
  | .hbm, ⟨30, _⟩ => ⟨S131072, .i32⟩
  | .hbm, ⟨31, _⟩ => ⟨S131072, .i1⟩
  | .hbm, ⟨32, _⟩ => ⟨S_, .i32⟩
  | .hbm, ⟨33, _⟩ => ⟨S131072, .i32⟩
  | .hbm, ⟨34, _⟩ => ⟨S131072, .i32⟩
  | .hbm, ⟨35, _⟩ => ⟨S131072, .i32⟩
  | .hbm, ⟨36, _⟩ => ⟨S131072x1, .i32⟩
  | .hbm, ⟨37, _⟩ => ⟨S131072x128, .f32⟩
  | .hbm, ⟨38, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_c_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩

abbrev nD : Nat := 1
abbrev τ : Topo := Topo.v7x

variable {F : FTy → Type} [FloatOps F]

class Facts₀ : Prop where
  bcast_S131072_S131072x1x1_0 : S131072.BroadcastsInDim S131072x1x1 (![0] : Fin 1 → Fin S131072x1x1.rank)
  bcast_S_S131072x1x1 : S_.BroadcastsInDim S131072x1x1 (![] : Fin 0 → Fin S131072x1x1.rank)
  bcast_S1_S1x1x1_2 : S1.BroadcastsInDim S1x1x1 (![2] : Fin 1 → Fin S1x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  h_S_ : 0 < S_.numel
  bcast_S131072x1_S131072x1x128_0_1 : S131072x1.BroadcastsInDim S131072x1x128 (![0, 1] : Fin 2 → Fin S131072x1x128.rank)
  bcast_S_S131072x1x128 : S_.BroadcastsInDim S131072x1x128 (![] : Fin 0 → Fin S131072x1x128.rank)
  shapeCasts_S131072x1x128_S131072x128 : S131072x1x128.ShapeCasts S131072x128
  bcast_S_S131072 : S_.BroadcastsInDim S131072 (![] : Fin 0 → Fin S131072.rank)
  bcast_S131072_S131072x1_0 : S131072.BroadcastsInDim S131072x1 (![0] : Fin 1 → Fin S131072x1.rank)
  dot_S131072x128_S8x128x128_S131072x8x128_1_2_0_01_n_n_wf : DotDims.WF S131072x128 S8x128x128 S131072x8x128 [1] [2] [0] [0, 1] [] []
  gather_S131072x8x128_S131072x1x1_S131072x1x128_2_1_0_0_1_2_11128_wf : GatherDims.WF S131072x8x128 S131072x1x1 S131072x1x128 [2] [1] [0] [1] [0] 2 ![1, 1, 128]
  gather_S8x128_S131072x1_S131072x128_1_0_n_n_0_1_1128_wf : GatherDims.WF S8x128 S131072x1 S131072x128 [1] [0] [] [0] [] 1 ![1, 128]

variable [Facts₀]

def dot_S131072x128_S8x128x128_S131072x8x128_1_2_0_01_n_n : DotDims S131072x128 S8x128x128 S131072x8x128 where
  lhsContracting := [1]
  rhsContracting := [2]
  lhsNonContracting := [0]
  rhsNonContracting := [0, 1]
  lhsBatch := []
  rhsBatch := []
  wf := dot_S131072x128_S8x128x128_S131072x8x128_1_2_0_01_n_n_wf
def gather_S131072x8x128_S131072x1x1_S131072x1x128_2_1_0_0_1_2_11128 : GatherDims S131072x8x128 S131072x1x1 S131072x1x128 where
  offsetDims := [2]
  collapsedSliceDims := [1]
  operandBatchingDims := [0]
  startIndicesBatchingDims := [0]
  startIndexMap := [1]
  indexVectorDim := 2
  sliceSizes := ![1, 1, 128]
  wf := gather_S131072x8x128_S131072x1x1_S131072x1x128_2_1_0_0_1_2_11128_wf
def gather_S8x128_S131072x1_S131072x128_1_0_n_n_0_1_1128 : GatherDims S8x128 S131072x1 S131072x128 where
  offsetDims := [1]
  collapsedSliceDims := [0]
  operandBatchingDims := []
  startIndicesBatchingDims := []
  startIndexMap := [0]
  indexVectorDim := 1
  sliceSizes := ![1, 128]
  wf := gather_S8x128_S131072x1_S131072x128_1_0_n_n_0_1_1128_wf

class Facts : Prop extends Facts₀ where

variable [Facts]
-- ==== Proof.Spec.lean ====
/-
  What both programs compute, as one function of the four argument arrays.

  Row `r` of the result is the affine map of row `r` of `x` chosen by that row's type:
  `out[r, o] = (∑ k, x[r, k] · W[types[r], o, k]) + b[types[r], o]`, for a type in `0 … 7`.

  The kernel does not index by the type. It forms all eight projections and adds, onto a zero block, each one
  times a selector that is the real number 1 where the row's type is that projection's and 0 elsewhere, with the
  bias row treated the same way:  `((0 + c₀) + c₁) + … + c₇`,  `cₜ = yₜ · sₜ + sₜ · bₜ`.
  Over the extended reals `0 · y = 0` for EVERY `y` (also an infinite one), `1 · y = y` and `0` is neutral for `+`,
  so the chain is `yₜ + bₜ` at the one `t` the selector picks (`chain_select`); no finiteness is used.
  The selector is the equality test's bit widened to 32 bits and read as a signed integer (`selector_eq`).
-/
import Idealize.ShloMosaic.PureOps.Ideal
import Idealize.ShloMosaic.Lib.ValueIdx
import Idealize.ShloMosaic.Lib.Affine

noncomputable section

open scoped BigOperators

namespace Cert.TypedProjection

open Idealize.ShloMosaic Idealize.ShloMosaic.ValueIdx

/-- Every row's type is one of the eight: as an unsigned word below 8 (which is `0 ≤ t < 8` read signed). -/
def TypesInRange (ty : (⟨1, ![131072]⟩ : Shape).Idx → BitVec 32) : Prop := ∀ r : Fin 131072, (ty (ix1 r)).toNat < 8

/-- Row `r`'s type as an index into the eight weight matrices. -/
def typeOf (ty : (⟨1, ![131072]⟩ : Shape).Idx → BitVec 32) (r : Fin 131072) : Fin 8 :=
  ⟨(ty (ix1 r)).toNat % 8, Nat.mod_lt _ (by decide)⟩

/-- One entry of the result: the chosen matrix's row `o` against row `r` of `x`, plus the chosen bias. -/
def entry (x : (⟨2, ![131072, 128]⟩ : Shape).Idx → EReal) (ty : (⟨1, ![131072]⟩ : Shape).Idx → BitVec 32)
    (W : (⟨3, ![8, 128, 128]⟩ : Shape).Idx → EReal) (b : (⟨2, ![8, 128]⟩ : Shape).Idx → EReal)
    (r : Fin 131072) (o : Fin 128) : EReal :=
  (∑ k : Fin 128, x (ix2 r k) * W (ix3 (typeOf ty r) o k)) + b (ix2 (typeOf ty r) o)

/-- The whole result array. -/
def result (x : (⟨2, ![131072, 128]⟩ : Shape).Idx → EReal) (ty : (⟨1, ![131072]⟩ : Shape).Idx → BitVec 32)
    (W : (⟨3, ![8, 128, 128]⟩ : Shape).Idx → EReal) (b : (⟨2, ![8, 128]⟩ : Shape).Idx → EReal) :
    (⟨2, ![131072, 128]⟩ : Shape).Idx → EReal :=
  fun i => entry x ty W b ⟨(i 0).val, idx2_lt0 i⟩ ⟨(i 1).val, idx2_lt1 i⟩

theorem result_ix2 (x : (⟨2, ![131072, 128]⟩ : Shape).Idx → EReal) (ty : (⟨1, ![131072]⟩ : Shape).Idx → BitVec 32)
    (W : (⟨3, ![8, 128, 128]⟩ : Shape).Idx → EReal) (b : (⟨2, ![8, 128]⟩ : Shape).Idx → EReal)
    (r : Fin 131072) (o : Fin 128) : result x ty W b (ix2 r o) = entry x ty W b r o := rfl

/-- The selector for type `c` at a row whose type word is `t`: the equality bit, widened, read as a signed integer. -/
def selector (t c : BitVec 32) : EReal := ((((IntOp.cmpi .eq t c).setWidth 32).toInt : ℝ) : EReal)

/-- It is 1 when the words are equal and 0 when they are not. -/
theorem selector_eq (t c : BitVec 32) : selector t c = if t = c then 1 else 0 := by
  unfold selector
  by_cases h : t = c
  · rw [if_pos h, IntOp.cmpi_eq.2 h]; norm_num
  · rw [if_neg h, eq_zero_of_ne_one (fun e => h (IntOp.cmpi_eq.1 e))]; norm_num

/-- The kernel's accumulation over the eight types, in its order, from the zero block. -/
def chain (y b s : Fin 8 → EReal) : EReal :=
  (((((((0 + (y 0 * s 0 + s 0 * b 0)) + (y 1 * s 1 + s 1 * b 1)) + (y 2 * s 2 + s 2 * b 2)) + (y 3 * s 3 + s 3 * b 3))
    + (y 4 * s 4 + s 4 * b 4)) + (y 5 * s 5 + s 5 * b 5)) + (y 6 * s 6 + s 6 * b 6)) + (y 7 * s 7 + s 7 * b 7)

/-- With a selector that is 1 at `t₀` and 0 elsewhere the chain is the `t₀` term alone. -/
theorem chain_select (y b : Fin 8 → EReal) (t₀ : Fin 8) :
    chain y b (fun t => if t = t₀ then 1 else 0) = y t₀ + b t₀ := by
  unfold chain
  fin_cases t₀ <;> simp

end Cert.TypedProjection

end
-- ==== Proof.PreDecode.lean ====
/-
  What the precondition says of the integer input: every row's type is one of the eight.

  The printed precondition is a conjunction of five reductions by `and`; its last two are
  `all (types ≥ 0)` and `all (types < 8)`, each a reduction over the one axis of a signed comparison against a
  splat constant. A conjunction of bits that is 1 has every conjunct 1, a reduction by `and` that is 1 has every
  element 1, and a signed word `t` with `0 ≤ t < 8` is, read unsigned, below 8.
-/
import proofs.«427867_j55705725829586_3_alg».proof.Pre_finite_inputs
import proofs.«427867_j55705725829586_3_alg».proof.Proof.Spec
import Idealize.ShloMosaic.Lib.ReduceAll
import Idealize.ShloMosaic.Lib.Affine

noncomputable section

namespace Cert.TypedProjection

open Idealize.ShloMosaic Idealize.ShloMosaic.ValueIdx Cert.Pre_finite_inputs

instance : Subsingleton Cert.Pre_finite_inputs.S_.Idx := ⟨fun _ _ => funext fun d => d.elim0⟩

/-- A signed 32-bit word between 0 and 8 is below 8 read unsigned. -/
theorem toNat_lt_eight (t : BitVec 32) (h0 : (0#32 : BitVec 32).toInt ≤ t.toInt) (h8 : t.toInt < (8#32 : BitVec 32).toInt) :
    t.toNat < 8 := by
  have e0 : (0#32 : BitVec 32).toInt = 0 := by decide
  have e8 : (8#32 : BitVec 32).toInt = 8 := by decide
  rw [e0] at h0; rw [e8] at h8
  have hc := BitVec.toInt_eq_toNat_cond t
  have hlt := t.isLt
  split at hc <;> omega

/-- Under the precondition every row's type is in range, at either instance. -/
theorem types_in_range [Cert.Pre_finite_inputs.Facts] {F : FTy → Type} [FloatOps F]
    (x : FVec F S131072x128 .f32) (ty : IVec S131072 32) (W : FVec F S8x128x128 .f32) (b : FVec F S8x128 .f32)
    (h : Cert.Pre_finite_inputs.fn (F := F) x ty W b = fun _ => 1#1) : TypesInRange ty := by
  intro r
  have h0 := congrFun h ix0
  dsimp only [Cert.Pre_finite_inputs.fn, Cert.Pre_finite_inputs.fn_part1] at h0
  obtain ⟨h12, hlt⟩ := IntOp.andi_eq_one.1 h0
  obtain ⟨-, hge⟩ := IntOp.andi_eq_one.1 h12
  have hge' := Host.reduce_andi_all _ _ _ _ ix0 hge (ix1 r)
  have hlt' := Host.reduce_andi_all _ _ _ _ ix0 hlt (ix1 r)
  exact toNat_lt_eight (ty (ix1 r)) (IntOp.cmpi_sge.1 hge') (IntOp.cmpi_slt.1 hlt')

end Cert.TypedProjection

end
-- ==== Proof.RefGather.lean ====
/-
  The reference's two gathers, read at an index.

  `take_along_axis(y_all, types[:, None, None], axis=1)` gathers, for row `r` and lane `o`, the entry
  `y_all[r, s, o]` where `s` is the row's start index read signed and clamped into `0 … 7`; the row axis is a batching
  axis (the result's row is the operand's row), the type axis is collapsed and start-indexed, the lane axis is an offset axis.
  `b[types]` gathers `b[s, o]`: the type axis collapsed and start-indexed, the lane axis an offset axis, no batching.
  Each operand coordinate is the library's clamped start plus batching coordinate plus offset coordinate; on these two
  records two of the three vanish on every axis.
-/
import proofs.«427867_j55705725829586_3_alg».proof.Proof.Gen.ReferenceIdeal
import Idealize.ShloMosaic.Lib.ValueIdx

noncomputable section

namespace Cert.ReferenceIdeal.RefValue

open Cert.ReferenceIdeal Cert.ReferenceIdeal.Gen Idealize.ShloMosaic Idealize.ShloMosaic.ValueIdx

/-- The dimension numbers of the along-axis gather and of the row gather, under short names. -/
abbrev gAlong : GatherDims S131072x8x128 S131072x1x1 S131072x1x128 := gather_S131072x8x128_S131072x1x1_S131072x1x128_2_1_0_0_1_2_11128
abbrev gRows : GatherDims S8x128 S131072x1 S131072x128 := gather_S8x128_S131072x1_S131072x128_1_0_n_n_0_1_1128

/-- The start index of row `r` in the along-axis gather's start-index array. -/
abbrev startAlong (r : Fin 131072) : S131072x1x1.Idx := ix3 r (0 : Fin 1) (0 : Fin 1)
/-- The start index of row `r` in the row gather's start-index array. -/
abbrev startRows (r : Fin 131072) : S131072x1.Idx := ix2 r (0 : Fin 1)

section Along
variable {w : Nat} (idx : IVec S131072x1x1 w) (r : Fin 131072) (o : Fin 128)

/-- Row axis: a batching axis, the result's row. -/
theorem along_axis0 : (gAlong.operandIdx (ix3 r (0 : Fin 1) o) idx 0).val = r.val := by
  show gAlong.start (ix3 r (0 : Fin 1) o) idx 0 + gAlong.batchCoord (ix3 r (0 : Fin 1) o) 0 + gAlong.offCoord (ix3 r (0 : Fin 1) o) 0 = _
  rw [GatherDims.start_batching _ _ _ _ (by decide), GatherDims.offCoord_eq_zero _ _ _ (by decide)]
  unfold GatherDims.batchCoord
  rw [dif_pos (by decide)]
  simp only [Nat.zero_add, Nat.add_zero]
  rfl

/-- Type axis: collapsed, the clamped start index. -/
theorem along_axis1 : (gAlong.operandIdx (ix3 r (0 : Fin 1) o) idx 1).val = min (idx (startAlong r)).toInt.toNat 7 := by
  show gAlong.start (ix3 r (0 : Fin 1) o) idx 1 + gAlong.batchCoord (ix3 r (0 : Fin 1) o) 1 + gAlong.offCoord (ix3 r (0 : Fin 1) o) 1 = _
  rw [GatherDims.batchCoord_eq_zero _ _ _ (by decide), GatherDims.offCoord_eq_zero _ _ _ (by decide)]
  unfold GatherDims.start
  rw [dif_pos (by decide)]
  have hsi : gAlong.siIdx (ix3 r (0 : Fin 1) o) ⟨List.idxOf (1 : Fin S131072x8x128.rank) gAlong.startIndexMap,
      List.idxOf_lt_length_iff.2 (by decide)⟩ = startAlong r := by
    funext b; refine Fin.ext ?_
    match b with
    | ⟨0, _⟩ => rfl
    | ⟨1, _⟩ => rfl
    | ⟨2, _⟩ => rfl
  rw [hsi]
  rfl

/-- Lane axis: an offset axis, the result's lane. -/
theorem along_axis2 : (gAlong.operandIdx (ix3 r (0 : Fin 1) o) idx 2).val = o.val := by
  show gAlong.start (ix3 r (0 : Fin 1) o) idx 2 + gAlong.batchCoord (ix3 r (0 : Fin 1) o) 2 + gAlong.offCoord (ix3 r (0 : Fin 1) o) 2 = _
  rw [GatherDims.batchCoord_eq_zero _ _ _ (by decide)]
  unfold GatherDims.start
  rw [dif_neg (by decide)]
  unfold GatherDims.offCoord
  rw [dif_pos (by decide)]
  simp only [Nat.zero_add]
  rfl

/-- The along-axis gather at `(r, 0, o)` reads the operand at `(r, s, o)`, `s` the row's start index clamped into `0 … 7`. -/
theorem along_operandIdx :
    gAlong.operandIdx (ix3 r (0 : Fin 1) o) idx
      = ix3 r (⟨min (idx (startAlong r)).toInt.toNat 7, by omega⟩ : Fin 8) o := by
  funext a
  refine Fin.ext ?_
  match a with
  | ⟨0, _⟩ => exact along_axis0 idx r o
  | ⟨1, _⟩ => exact along_axis1 idx r o
  | ⟨2, _⟩ => exact along_axis2 idx r o

end Along

section Rows
variable {w : Nat} (idx : IVec S131072x1 w) (r : Fin 131072) (o : Fin 128)

/-- Type axis: collapsed, the clamped start index. -/
theorem rows_axis0 : (gRows.operandIdx (ix2 r o) idx 0).val = min (idx (startRows r)).toInt.toNat 7 := by
  show gRows.start (ix2 r o) idx 0 + gRows.batchCoord (ix2 r o) 0 + gRows.offCoord (ix2 r o) 0 = _
  rw [GatherDims.batchCoord_eq_zero _ _ _ (by decide), GatherDims.offCoord_eq_zero _ _ _ (by decide)]
  unfold GatherDims.start
  rw [dif_pos (by decide)]
  have hsi : gRows.siIdx (ix2 r o) ⟨List.idxOf (0 : Fin S8x128.rank) gRows.startIndexMap,
      List.idxOf_lt_length_iff.2 (by decide)⟩ = startRows r := by
    funext b; refine Fin.ext ?_
    match b with
    | ⟨0, _⟩ => rfl
    | ⟨1, _⟩ => rfl
  rw [hsi]
  rfl

/-- Lane axis: an offset axis, the result's lane. -/
theorem rows_axis1 : (gRows.operandIdx (ix2 r o) idx 1).val = o.val := by
  show gRows.start (ix2 r o) idx 1 + gRows.batchCoord (ix2 r o) 1 + gRows.offCoord (ix2 r o) 1 = _
  rw [GatherDims.batchCoord_eq_zero _ _ _ (by decide)]
  unfold GatherDims.start
  rw [dif_neg (by decide)]
  unfold GatherDims.offCoord
  rw [dif_pos (by decide)]
  simp only [Nat.zero_add]
  rfl

/-- The row gather at `(r, o)` reads the operand at `(s, o)`, `s` the row's start index clamped into `0 … 7`. -/
theorem rows_operandIdx :
    gRows.operandIdx (ix2 r o) idx = ix2 (⟨min (idx (startRows r)).toInt.toNat 7, by omega⟩ : Fin 8) o := by
  funext a
  refine Fin.ext ?_
  match a with
  | ⟨0, _⟩ => exact rows_axis0 idx r o
  | ⟨1, _⟩ => exact rows_axis1 idx r o

end Rows

end Cert.ReferenceIdeal.RefValue

end
-- ==== Proof.RefValue.lean ====
/-
  The reference computes the specification, when every row's type is one of the eight.

  With a type word `t` in `0 … 7`: jnp's wrap of a negative index (`t < 0 ? t + 8 : t`) leaves `t`; the in-bounds test
  `0 ≤ t ≤ 7` of `take_along_axis` is true at every row, so its reduction by `and` is 1 and the select keeps the gathered
  value and never the fill; and the clamp of both gathers' start index into `0 … 7` leaves `t`. So entry `(r, o)` is
  `y_all[r, t, o] + b[t, o]` with `y_all[r, t, o] = ∑ₖ x[r, k] · W[t, o, k]`, the host's contraction read as a sum.
-/
import proofs.«427867_j55705725829586_3_alg».proof.Proof.RefRead
import proofs.«427867_j55705725829586_3_alg».proof.Proof.RefGather
import proofs.«427867_j55705725829586_3_alg».proof.Proof.Spec
import Idealize.ShloMosaic.Lib.Affine
import Idealize.ShloMosaic.PureOps.Reduce

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.TypedProjection

/-! ## Words in range -/

theorem toInt_of_lt (t : BitVec 32) (h : t.toNat < 8) : t.toInt = (t.toNat : Int) := by
  have hc := BitVec.toInt_eq_toNat_cond t
  split at hc <;> omega

theorem toInt_zero : (0#32 : BitVec 32).toInt = 0 := by decide
theorem toInt_seven : (7#32 : BitVec 32).toInt = 7 := by decide

/-- The wrap of a negative index leaves a type in range as it is. -/
theorem wrap_id (t : BitVec 32) (h : t.toNat < 8) : Scalar.select (IntOp.cmpi .slt t 0#32) (IntOp.addi t 8#32) t = t := by
  have hn : ¬IntOp.cmpi .slt t 0#32 = 1#1 := fun e => by
    have := IntOp.cmpi_slt.1 e
    rw [toInt_of_lt t h, toInt_zero] at this
    omega
  rw [eq_zero_of_ne_one hn, select_zero]

/-- The in-bounds test `0 ≤ t ≤ 7` holds of a type in range. -/
theorem inb_flag (t : BitVec 32) (h : t.toNat < 8) : IntOp.andi (IntOp.cmpi .sge t 0#32) (IntOp.cmpi .sle t 7#32) = 1#1 :=
  IntOp.andi_eq_one.2 ⟨IntOp.cmpi_sge.2 (by rw [toInt_of_lt t h, toInt_zero]; omega),
    IntOp.cmpi_sle.2 (by rw [toInt_of_lt t h, toInt_seven]; omega)⟩

/-- The gathers' clamp leaves a type in range as it is: it is the specification's `typeOf`. -/
theorem clamp_eq (t : BitVec 32) (h : t.toNat < 8) (h1 : min t.toInt.toNat 7 < 8) (h2 : t.toNat % 8 < 8) :
    (⟨min t.toInt.toNat 7, h1⟩ : Fin 8) = ⟨t.toNat % 8, h2⟩ :=
  Fin.ext (by
    show min t.toInt.toNat 7 = t.toNat % 8
    rw [toInt_of_lt t h, Int.toNat_natCast]
    omega)

/-- The same for a start index KNOWN to be such a type word (the whole clamped index is replaced at once). -/
theorem clamp_of_eq (w t : BitVec 32) (e : w = t) (h : t.toNat < 8) (h1 : min w.toInt.toNat 7 < 8) :
    (⟨min w.toInt.toNat 7, h1⟩ : Fin 8) = ⟨t.toNat % 8, Nat.mod_lt _ (by decide)⟩ := by
  subst e
  exact clamp_eq w h h1 _

/-- A reduction by `and` of an array of ones, from one, is one. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_one x hx _

/-! ## The integer stages -/

section Stages
variable (x1 : (⟨S131072, .i32⟩ : BufTy).Contents (Elt Ideal)) (hr : TypesInRange x1)
include hr

/-- The type word the start-index array holds at any of its indices is in range. -/
theorem range_at (i : S131072x1x1.Idx) : (x1 (idx_main_v1 i)).toNat < 8 := by
  have e : idx_main_v1 i = ix1 (⟨(i 0).val, (i 0).isLt⟩ : Fin 131072) := funext fun a => match a with | ⟨0, _⟩ => rfl
  rw [e]
  exact hr _

/-- `take_along_axis`'s wrapped start index is the type word. -/
theorem wrapped_at (i : S131072x1x1.Idx) : val_main_call0_v4 (F := Ideal) x1 i = x1 (idx_main_v1 i) := by
  rw [val_main_call0_v4_apply, val_main_call0_v1_apply, val_main_call0_v3_apply, val_main_v1_apply, val_main_call0_v0_apply,
    val_main_call0_c_apply, val_main_call0_v2_apply, val_main_call0_c_0_apply]
  exact wrap_id _ (range_at x1 hr i)

/-- Its in-bounds flag is 1 at every row. -/
theorem flag_one (j : S131072x1.Idx) : val_main_call0_v11 (F := Ideal) x1 j = 1#1 := by
  unfold val_main_call0_v11
  refine reduce_andi_one _ _ _ _ j (fun i => ?_) rfl
  rw [val_main_call0_v10_apply, val_main_call0_v6_apply, val_main_call0_v9_apply, wrapped_at x1 hr i, val_main_call0_v5_apply,
    val_main_call0_c_2_apply, val_main_call0_v8_apply, val_main_call0_v7_apply, val_main_call0_c_1_apply]
  exact inb_flag _ (range_at x1 hr i)

/-- `b[types]`'s wrapped start index at row `r` is the type word. -/
theorem wrappedRows_at (r : Fin 131072) : val_main_v9 (F := Ideal) x1 (startRows r) = x1 (ix1 r) := by
  have e : idx_main_v9 (startRows r) = ix1 r := funext fun a => match a with | ⟨0, _⟩ => rfl
  rw [val_main_v9_apply, e, val_main_v8_apply, val_main_v5_apply, val_main_v7_apply, val_main_v4_apply, val_main_c_apply,
    val_main_v6_apply, val_main_c_0_apply]
  exact wrap_id _ (hr r)

end Stages

/-! ## The result -/

section Result
variable (x0 : (⟨S131072x128, .f32⟩ : BufTy).Contents (Elt Ideal)) (x1 : (⟨S131072, .i32⟩ : BufTy).Contents (Elt Ideal))
  (x2 : (⟨S8x128x128, .f32⟩ : BufTy).Contents (Elt Ideal)) (x3 : (⟨S8x128, .f32⟩ : BufTy).Contents (Elt Ideal))
  (hr : TypesInRange x1)
include hr

/-- The gathered projection at `(r, 0, o)`: row `r` of `x` against row `o` of the row's own weight matrix. -/
theorem along_at (r : Fin 131072) (o : Fin 128) :
    val_main_v2 (F := Ideal) x0 x1 x2 (ix3 r (0 : Fin 1) o) = ∑ k : Fin 128, x0 (ix2 r k) * x2 (ix3 (typeOf x1 r) o k) := by
  rw [val_main_v2_apply, val_main_call0_v13_apply, flag_one x1 hr, select_one]
  unfold val_main_call0_v12 Host.gather
  have e1 : idx_main_v1 (startAlong r) = ix1 r := funext fun a => match a with | ⟨0, _⟩ => rfl
  have hw : val_main_call0_v4 (F := Ideal) x1 (startAlong r) = x1 (ix1 r) :=
    (wrapped_at x1 hr (startAlong r)).trans (congrArg x1 e1)
  rw [along_operandIdx, clamp_of_eq _ _ hw (hr r), val_main_v0_apply]
  refine Finset.sum_congr rfl fun k _ => ?_
  have el : lidx_main_v0 (ix3 r (⟨(x1 (ix1 r)).toNat % 8, Nat.mod_lt _ (by decide)⟩ : Fin 8) o) k = ix2 r k :=
    funext fun a => match a with | ⟨0, _⟩ => rfl | ⟨1, _⟩ => rfl
  have er : ridx_main_v0 (ix3 r (⟨(x1 (ix1 r)).toNat % 8, Nat.mod_lt _ (by decide)⟩ : Fin 8) o) k = ix3 (typeOf x1 r) o k :=
    funext fun a => match a with | ⟨0, _⟩ => rfl | ⟨1, _⟩ => rfl | ⟨2, _⟩ => rfl
  rw [el, er]

/-- The gathered bias at `(r, o)`. -/
theorem rows_at (r : Fin 131072) (o : Fin 128) : val_main_v10 (F := Ideal) x1 x3 (ix2 r o) = x3 (ix2 (typeOf x1 r) o) := by
  unfold val_main_v10 Host.gather
  rw [rows_operandIdx, clamp_of_eq _ _ (wrappedRows_at x1 hr r) (hr r)]
  rfl

/-- THE REFERENCE IS THE SPECIFICATION. -/
theorem reference_eq : val_main_v11 (F := Ideal) x0 x1 x2 x3 = result x0 x1 x2 x3 := by
  funext i
  obtain ⟨r, o, rfl⟩ : ∃ (r : Fin 131072) (o : Fin 128), i = ix2 r o := ⟨i 0, i 1, eq_ix2 i⟩
  have e3 : idx_main_v3 (ix2 r o) = ix3 r (0 : Fin 1) o := funext fun a => Fin.ext (match a with
    | ⟨0, _⟩ => by
      have := o.isLt
      show (r.val * 128 + o.val) / 128 = r.val
      omega
    | ⟨1, _⟩ => rfl
    | ⟨2, _⟩ => by
      have := o.isLt
      show (r.val * 128 + o.val) % 128 = o.val
      omega)
  rw [val_main_v11_apply, val_main_v3_apply, e3, along_at x0 x1 x2 hr r o, rows_at x1 x3 hr r o, result_ix2]
  rfl

end Result

end Cert.ReferenceIdeal.RefValue

end
-- ==== Proof.KernelBlock.lean ====
/-
  What one grid point leaves in the output block, as a term of its four input blocks.

  The body fills the block with zeros and then, type by type, reads the block back, adds that type's masked
  projection and masked bias row, and stores it again: nine whole-block stores, each but the first over a
  read-back of the one before. A read-back through the rectangle the last store wrote reads that store's value,
  so the block ends as a nest of nine levels, `level₀ = 0`, `levelₜ₊₁ = levelₜ + (projₜ · selₜ + selₜ · biasₜ)`.
  The projections come four at a time from one 128 × 512 half of the weight block (columns 0 … 511 for types
  0 … 3, columns 512 … 1023 for types 4 … 7); the bias rows are rows 0 … 7 of the bias block.
  Everything here holds at any float instance.
-/
import proofs.«427867_j55705725829586_3_alg».proof.Proof.Gen.KernelIdeal.Frame
import Idealize.ShloMosaic.Lib.Pipeline.Value
import Idealize.ShloMosaic.Lib.Tactic

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- Columns 0 … 511 of the weight block: the matrices of types 0 … 3, side by side. -/
abbrev wLo (x2 : Vec F S128x1024 .bf16) : Vec F S128x512 .bf16 :=
  View.ld x2 (Rect.unit (s := S128x1024) ![0, 0] S128x512.size inb_S128x1024_S128x512_0_0)
/-- Columns 512 … 1023: the matrices of types 4 … 7. -/
abbrev wHi (x2 : Vec F S128x1024 .bf16) : Vec F S128x512 .bf16 :=
  View.ld x2 (Rect.unit (s := S128x1024) ![0, 512] S128x512.size inb_S128x1024_S128x512_0_512)
/-- Row `t` of the bias block, as a 1 × 128 vector. -/
abbrev bRow0 (x3 : Vec F S8x128 .f32) : Vec F S1x128 .f32 := View.ld x3 (Rect.unit (s := S8x128) ![0, 0] S1x128.size inb_S8x128_S1x128_0_0)
abbrev bRow1 (x3 : Vec F S8x128 .f32) : Vec F S1x128 .f32 := View.ld x3 (Rect.unit (s := S8x128) ![1, 0] S1x128.size inb_S8x128_S1x128_1_0)
abbrev bRow2 (x3 : Vec F S8x128 .f32) : Vec F S1x128 .f32 := View.ld x3 (Rect.unit (s := S8x128) ![2, 0] S1x128.size inb_S8x128_S1x128_2_0)
abbrev bRow3 (x3 : Vec F S8x128 .f32) : Vec F S1x128 .f32 := View.ld x3 (Rect.unit (s := S8x128) ![3, 0] S1x128.size inb_S8x128_S1x128_3_0)
abbrev bRow4 (x3 : Vec F S8x128 .f32) : Vec F S1x128 .f32 := View.ld x3 (Rect.unit (s := S8x128) ![4, 0] S1x128.size inb_S8x128_S1x128_4_0)
abbrev bRow5 (x3 : Vec F S8x128 .f32) : Vec F S1x128 .f32 := View.ld x3 (Rect.unit (s := S8x128) ![5, 0] S1x128.size inb_S8x128_S1x128_5_0)
abbrev bRow6 (x3 : Vec F S8x128 .f32) : Vec F S1x128 .f32 := View.ld x3 (Rect.unit (s := S8x128) ![6, 0] S1x128.size inb_S8x128_S1x128_6_0)
abbrev bRow7 (x3 : Vec F S8x128 .f32) : Vec F S1x128 .f32 := View.ld x3 (Rect.unit (s := S8x128) ![7, 0] S1x128.size inb_S8x128_S1x128_7_0)

variable (x0 : Vec F S4096x128 .f32) (x1 : Vec F S4096x1 .i32) (x2 : Vec F S128x1024 .bf16) (x3 : Vec F S8x128 .f32)

/-- The zero fill. -/
def level0 : Vec F S4096x128 .f32 := k0_pay5 (F := F)
/-- After type 0 … after type 7. -/
def level1 : Vec F S4096x128 .f32 := k0_pay7 x0 x1 (wLo x2) (bRow0 x3) (level0 (F := F))
def level2 : Vec F S4096x128 .f32 := k0_pay9 (k0_pay8 x0 x1 (wLo x2) (bRow1 x3)) (level1 x0 x1 x2 x3)
def level3 : Vec F S4096x128 .f32 := k0_pay10 (k0_pay4 x1) (k0_pay6 x0 (wLo x2)) (bRow2 x3) (level2 x0 x1 x2 x3)
def level4 : Vec F S4096x128 .f32 := k0_pay11 (k0_pay4 x1) (k0_pay6 x0 (wLo x2)) (bRow3 x3) (level3 x0 x1 x2 x3)
def level5 : Vec F S4096x128 .f32 := k0_pay13 (k0_pay3 x0) (k0_pay4 x1) (wHi x2) (bRow4 x3) (level4 x0 x1 x2 x3)
def level6 : Vec F S4096x128 .f32 := k0_pay14 (k0_pay3 x0) (k0_pay4 x1) (wHi x2) (bRow5 x3) (level5 x0 x1 x2 x3)
def level7 : Vec F S4096x128 .f32 :=
  k0_pay1 (k0_pay15 (k0_pay4 x1)) (k0_pay16 (k0_pay3 x0) (k0_pay4 x1) (wHi x2)) (bRow6 x3) (level6 x0 x1 x2 x3)
def level8 : Vec F S4096x128 .f32 := k0_pay2 (k0_pay4 x1) (k0_pay12 (k0_pay3 x0) (wHi x2)) (bRow7 x3) (level7 x0 x1 x2 x3)

/-- What the body leaves in the output block, on any staging buffers, is the last level: the ninth store covers the
    block, and each read-back reads the store before it. -/
theorem out_eq (c : Dev nD) (i : grid0.Coords) (a1 : Memref sig .tc .vmem S4096x128 .f32) (h1 : a1.IsWhole)
    (a2 : Memref sig .tc .vmem S4096x1 .i32) (h2 : a2.IsWhole) (a3 : Memref sig .tc .vmem S128x1024 .bf16) (h3 : a3.IsWhole)
    (a4 : Memref sig .tc .vmem S8x128 .f32) (h4 : a4.IsWhole) (a5 : Memref sig .tc .vmem S4096x128 .f32) (h5 : a5.IsWhole) :
    out0_A_4 c i a1 h1 a2 h2 a3 h3 a4 h4 a5 h5 x0 x1 x2 x3 = level8 x0 x1 x2 x3 := by
  unfold out0_A_4
  rw [View.read_writes_eq_canon _ _ _ (cover0_A_4 c i a1 h1 a2 h2 a3 h3 a4 h4 a5 h5 x0 x1 x2 x3)]
  unfold kernelRun0_A
  dsimp only
  sl_unfold_words
  rw [View.canon_cons_unit_zero (S := S4096x128) hz]
  simp only [View.readCov_cons_toLoadRect, View.readAt_eq_ld, h1.read_unread, h2.read_unread, h3.read_unread, h4.read_unread,
    View.ld_unit_zero (S := S4096x128) hz, View.ld_unit_zero (S := S4096x1) hz]
  rfl

end Cert.KernelIdeal.Block

end
-- ==== Proof.KernelEntry.lean ====
/-
  One entry of the output block, over the extended reals.

  Entry `(p, q)` of level `t + 1` is entry `(p, q)` of level `t` plus `projₜ(p, q) · selₜ(p) + selₜ(p) · bias(t, q)`, where
  `projₜ(p, q) = ∑ₖ x(p, k) · w(k, 128 t + q)` (the change of float format is the identity and the matrix product into a
  zero accumulator is the plain sum), `selₜ(p)` is the selector of the row's type word against `t`, and
  `bias(t, q)` is row `t` of the bias block. From the zero block the eight steps are the specification's `chain`.
-/
import proofs.«427867_j55705725829586_3_alg».proof.Proof.KernelBlock
import proofs.«427867_j55705725829586_3_alg».proof.Proof.Spec
import Idealize.ShloMosaic.Lib.ValueIdx
import Idealize.ShloMosaic.PureOps.Ideal.Laws

set_option maxRecDepth 16384

noncomputable section

open scoped BigOperators

namespace Cert.KernelIdeal.Block

open Cert.KernelIdeal Cert.KernelIdeal.Gen Idealize.ShloMosaic Idealize.ShloMosaic.TcCoe Idealize.SL.Sem
open Idealize.ShloMosaic.ValueIdx Cert.TypedProjection

/-! ## Layout operations of the body, read at an index -/

section Layout
variable {α : Type}

/-- A column broadcast along the lanes reads the column at the row. -/
theorem colBcast (v : S4096x1.Idx → α) (p : Fin 4096) (q : Fin 128) :
    broadcastTo S4096x128 v broadcasts_S4096x1_S4096x128 (ix2 p q) = v (ix2 p (0 : Fin 1)) :=
  broadcastTo_apply v broadcasts_S4096x1_S4096x128 (ix2 p q) (ix2 p (0 : Fin 1)) (fun a => match a with
    | ⟨0, _⟩ => by show p.val = if (4096 : Nat) = 1 then 0 else p.val; rw [if_neg (by decide)]
    | ⟨1, _⟩ => by show 0 = if (1 : Nat) = 1 then 0 else q.val; rw [if_pos rfl])

/-- A row broadcast down the rows reads the row at the lane. -/
theorem rowBcast (v : S1x128.Idx → α) (p : Fin 4096) (q : Fin 128) :
    broadcastTo S4096x128 v broadcasts_S1x128_S4096x128 (ix2 p q) = v (ix2 (0 : Fin 1) q) :=
  broadcastTo_apply v broadcasts_S1x128_S4096x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- A 128-lane slice of the 512-lane product at lane offset `off`. -/
theorem laneSlice (off : Nat) (hoff : off + 128 ≤ 512) (h : S4096x512.Slices ![0, off] S4096x128) (v : S4096x512.Idx → α)
    (p : Fin 4096) (q : Fin 128) :
    extractStridedSlice S4096x128 ![0, off] v h (ix2 p q) = v (ix2 p (⟨off + q.val, by omega⟩ : Fin 512)) :=
  extractStridedSlice_apply ![0, off] v h (ix2 p q) (ix2 p (⟨off + q.val, by omega⟩ : Fin 512)) (fun a => match a with
    | ⟨0, _⟩ => by show p.val = 0 + p.val; omega
    | ⟨1, _⟩ => rfl)

/-- Row `t` of the bias block, loaded as a 1 × 128 vector, at lane `q`. -/
theorem biasRow {Val : EltTy → Type} {e : EltTy} (t : Nat) (ht : t < 8)
    (inb : ∀ a, (![t, 0] : Fin 2 → Nat) a + S1x128.size a ≤ S8x128.size a) (x3 : S8x128.Idx → Val e) (q : Fin 128) :
    View.ld (Val := Val) (e' := e) x3 (Rect.unit (s := S8x128) ![t, 0] S1x128.size inb) (ix2 (0 : Fin 1) q)
      = x3 (ix2 (⟨t, ht⟩ : Fin 8) q) :=
  congrArg x3 (funext fun a => Fin.ext (match a with
    | ⟨0, _⟩ => by show t + 1 * 0 = t; omega
    | ⟨1, _⟩ => by show 0 + 1 * q.val = q.val; omega))

/-- Columns `off … off + 511` of the weight block, at `(k, j)`. -/
theorem weightCols {Val : EltTy → Type} {e : EltTy} (off : Nat) (hoff : off + 512 ≤ 1024)
    (inb : ∀ a, (![0, off] : Fin 2 → Nat) a + S128x512.size a ≤ S128x1024.size a)
    (x2 : S128x1024.Idx → Val e) (k : Fin 128) (j : Fin 512) :
    View.ld (Val := Val) (e' := e) x2 (Rect.unit (s := S128x1024) ![0, off] S128x512.size inb) (ix2 k j)
      = x2 (ix2 k (⟨off + j.val, by omega⟩ : Fin 1024)) :=
  congrArg x2 (funext fun a => Fin.ext (match a with
    | ⟨0, _⟩ => by show 0 + 1 * k.val = k.val; omega
    | ⟨1, _⟩ => by show off + 1 * j.val = off + j.val; omega))

end Layout

/-! ## The selector and the matrix product -/

/-- The body's select for type word `c`: equality bit, widened, converted; at the row it is the specification's selector. -/
theorem sel_apply (v3 : IVec S4096x1 32) (c : BitVec 32) (p : Fin 4096) :
    (sitofp .f32 (extui 32 (cmpi .eq v3 (broadcast S4096x1 c)) natLt_1_32) : FVec Ideal S4096x1 .f32) (ix2 p (0 : Fin 1))
      = selector (v3 (ix2 p (0 : Fin 1))) c := rfl

local notation "dotK" => dot_S4096x128_S128x512_S4096x512_1_0_0_1_n_n

theorem lhs_axis0 (i : S4096x512.Idx) (q : dot_S4096x128_S128x512_S4096x512_1_0_0_1_n_n.contr.Idx) :
    (dot_S4096x128_S128x512_S4096x512_1_0_0_1_n_n.lhsIdx i q 0).val = (i 0).val := by
  unfold DotDims.lhsIdx
  rw [dif_neg (show ¬(0 : Fin S4096x128.rank) ∈ dot_S4096x128_S128x512_S4096x512_1_0_0_1_n_n.lhsBatch by decide),
    dif_pos (show (0 : Fin S4096x128.rank) ∈ dot_S4096x128_S128x512_S4096x512_1_0_0_1_n_n.lhsNonContracting by decide)]
  rfl
theorem lhs_axis1 (i : S4096x512.Idx) (q : dot_S4096x128_S128x512_S4096x512_1_0_0_1_n_n.contr.Idx) :
    (dot_S4096x128_S128x512_S4096x512_1_0_0_1_n_n.lhsIdx i q 1).val = (q ⟨0, by decide⟩).val :=
  dot_S4096x128_S128x512_S4096x512_1_0_0_1_n_n.lhsIdx_val_of_single rfl i q
theorem rhs_axis0 (i : S4096x512.Idx) (q : dot_S4096x128_S128x512_S4096x512_1_0_0_1_n_n.contr.Idx) :
    (dot_S4096x128_S128x512_S4096x512_1_0_0_1_n_n.rhsIdx i q 0).val = (q ⟨0, by decide⟩).val :=
  dot_S4096x128_S128x512_S4096x512_1_0_0_1_n_n.rhsIdx_val_of_single rfl i q
theorem rhs_axis1 (i : S4096x512.Idx) (q : dot_S4096x128_S128x512_S4096x512_1_0_0_1_n_n.contr.Idx) :
    (dot_S4096x128_S128x512_S4096x512_1_0_0_1_n_n.rhsIdx i q 1).val = (i 1).val := by
  unfold DotDims.rhsIdx
  rw [dif_neg (show ¬(1 : Fin S128x512.rank) ∈ dot_S4096x128_S128x512_S4096x512_1_0_0_1_n_n.rhsBatch by decide),
    dif_pos (show (1 : Fin S128x512.rank) ∈ dot_S4096x128_S128x512_S4096x512_1_0_0_1_n_n.rhsNonContracting by decide)]
  rfl

/-- The 4096 × 128 by 128 × 512 product into the zero accumulator, at `(p, j)`: the sum over the 128 shared coordinates. -/
theorem product_apply (l : FVec Ideal S4096x128 .bf16) (w : FVec Ideal S128x512 .bf16) (p : Fin 4096) (j : Fin 512) :
    matmul dot_S4096x128_S128x512_S4096x512_1_0_0_1_n_n none l w (constant S4096x512 .f32 0x00000000#32) (ix2 p j)
      = ∑ k : Fin 128, l (ix2 p k) * w (ix2 k j) := by
  refine (Ideal.matmul_constant_zero_apply dot_S4096x128_S128x512_S4096x512_1_0_0_1_n_n none l w (ix2 p j)).trans ?_
  rw [← Equiv.sum_comp (ValueIdx.contrEquiv1 dot_S4096x128_S128x512_S4096x512_1_0_0_1_n_n 128 rfl rfl).symm]
  refine Finset.sum_congr rfl fun k _ => ?_
  have hk := ValueIdx.contrEquiv1_symm_val dot_S4096x128_S128x512_S4096x512_1_0_0_1_n_n 128 rfl rfl k
  have el : dot_S4096x128_S128x512_S4096x512_1_0_0_1_n_n.lhsIdx (ix2 p j)
      ((ValueIdx.contrEquiv1 dot_S4096x128_S128x512_S4096x512_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S4096x128_S128x512_S4096x512_1_0_0_1_n_n.rhsIdx (ix2 p j)
      ((ValueIdx.contrEquiv1 dot_S4096x128_S128x512_S4096x512_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-! ## One level over the one before -/

/-- The step every level takes: the level before, plus a projection times the selector column, plus the selector
    column times a bias row. -/
theorem step_apply (old : Vec Ideal S4096x128 .f32) (y : FVec Ideal S4096x128 .f32) (s : FVec Ideal S4096x1 .f32)
    (b : Vec Ideal S1x128 .f32) (p : Fin 4096) (q : Fin 128) :
    addf (shapeCast S4096x128 old shapeCasts_S4096x128_S4096x128)
        (addf (mulf y (broadcastTo S4096x128 s broadcasts_S4096x1_S4096x128))
          (mulf (broadcastTo S4096x128 s broadcasts_S4096x1_S4096x128) (broadcastTo S4096x128 b broadcasts_S1x128_S4096x128)))
        (ix2 p q)
      = old (ix2 p q) + (y (ix2 p q) * s (ix2 p (0 : Fin 1)) + s (ix2 p (0 : Fin 1)) * b (ix2 (0 : Fin 1) q)) := by
  rw [addf_apply, addf_apply, mulf_apply, mulf_apply, shapeCast_self, colBcast, rowBcast]

/-- Row `p` of `x` against column `c` of the 128 × 1024 weight block. -/
def proj (x0 : Vec Ideal S4096x128 .f32) (x2 : Vec Ideal S128x1024 .bf16) (t : Fin 8) (p : Fin 4096) (q : Fin 128) : EReal :=
  ∑ k : Fin 128, x0 (ix2 p k) * x2 (ix2 k (⟨t.val * 128 + q.val, by have := t.isLt; have := q.isLt; omega⟩ : Fin 1024))

theorem proj_of (x0 : Vec Ideal S4096x128 .f32) (x2 : Vec Ideal S128x1024 .bf16) (t : Fin 8) (p : Fin 4096) (q : Fin 128)
    (a : Nat) (ha : a < 1024) (e : a = t.val * 128 + q.val) :
    (∑ k : Fin 128, x0 (ix2 p k) * x2 (ix2 k (⟨a, ha⟩ : Fin 1024))) = proj x0 x2 t p q := by
  subst e; rfl

/-- The product with one half of the weight block (either matmul of the body), at `(p, j)`. -/
theorem half_apply (x0 : Vec Ideal S4096x128 .f32) (w : Vec Ideal S128x512 .bf16) (p : Fin 4096) (j : Fin 512) :
    k0_pay6 x0 w (ix2 p j) = ∑ k : Fin 128, x0 (ix2 p k) * w (ix2 k j) := by
  have e : shapeCast (α := Elt Ideal .bf16) S128x512 w shapeCasts_S128x512_S128x512 = w :=
    shapeCast_self (α := Elt Ideal .bf16) w _
  unfold k0_pay6 k0_pay3
  rw [e]
  exact product_apply _ _ p j
theorem half_apply' (x0 : Vec Ideal S4096x128 .f32) (w : Vec Ideal S128x512 .bf16) (p : Fin 4096) (j : Fin 512) :
    k0_pay12 (k0_pay3 x0) w (ix2 p j) = ∑ k : Fin 128, x0 (ix2 p k) * w (ix2 k j) := by
  have e : shapeCast (α := Elt Ideal .bf16) S128x512 w shapeCasts_S128x512_S128x512 = w :=
    shapeCast_self (α := Elt Ideal .bf16) w _
  unfold k0_pay12 k0_pay3
  rw [e]
  exact product_apply _ _ p j

/-- The projection of type `t` as the body forms it: lane slice `off₂` of the product with the half at column `off₁`. -/
theorem slice_lo (x0 : Vec Ideal S4096x128 .f32) (x2 : Vec Ideal S128x1024 .bf16) (t : Fin 8) (off : Nat) (hoff : off + 128 ≤ 512)
    (h : S4096x512.Slices ![0, off] S4096x128) (e : off = t.val * 128) (p : Fin 4096) (q : Fin 128) :
    extractStridedSlice S4096x128 ![0, off] (k0_pay6 x0 (wLo x2)) h (ix2 p q) = proj x0 x2 t p q := by
  rw [laneSlice off hoff h, half_apply]
  refine (Finset.sum_congr rfl fun k _ => ?_).trans
    (proj_of x0 x2 t p q (0 + (off + q.val)) (by have := q.isLt; omega) (by omega))
  exact congrArg (x0 (ix2 p k) * ·)
    (weightCols (Val := Elt Ideal) (e := .bf16) 0 (by omega) inb_S128x1024_S128x512_0_0 x2 k ⟨off + q.val, by have := q.isLt; omega⟩)
theorem slice_hi (x0 : Vec Ideal S4096x128 .f32) (x2 : Vec Ideal S128x1024 .bf16) (t : Fin 8) (off : Nat) (hoff : off + 128 ≤ 512)
    (h : S4096x512.Slices ![0, off] S4096x128) (e : 512 + off = t.val * 128) (p : Fin 4096) (q : Fin 128) :
    extractStridedSlice S4096x128 ![0, off] (k0_pay12 (k0_pay3 x0) (wHi x2)) h (ix2 p q) = proj x0 x2 t p q := by
  rw [laneSlice off hoff h, half_apply']
  refine (Finset.sum_congr rfl fun k _ => ?_).trans
    (proj_of x0 x2 t p q (512 + (off + q.val)) (by have := q.isLt; omega) (by omega))
  exact congrArg (x0 (ix2 p k) * ·)
    (weightCols (Val := Elt Ideal) (e := .bf16) 512 (by omega) inb_S128x1024_S128x512_0_512 x2 k ⟨off + q.val, by have := q.isLt; omega⟩)

/-- Bias row `t` at lane `q` is entry `(t, q)` of the bias block. -/
theorem bRow0_apply (x3 : Vec Ideal S8x128 .f32) (q : Fin 128) : bRow0 x3 (ix2 (0 : Fin 1) q) = x3 (ix2 (0 : Fin 8) q) :=
  biasRow 0 (by omega) inb_S8x128_S1x128_0_0 x3 q
theorem bRow1_apply (x3 : Vec Ideal S8x128 .f32) (q : Fin 128) : bRow1 x3 (ix2 (0 : Fin 1) q) = x3 (ix2 (1 : Fin 8) q) :=
  biasRow 1 (by omega) inb_S8x128_S1x128_1_0 x3 q
theorem bRow2_apply (x3 : Vec Ideal S8x128 .f32) (q : Fin 128) : bRow2 x3 (ix2 (0 : Fin 1) q) = x3 (ix2 (2 : Fin 8) q) :=
  biasRow 2 (by omega) inb_S8x128_S1x128_2_0 x3 q
theorem bRow3_apply (x3 : Vec Ideal S8x128 .f32) (q : Fin 128) : bRow3 x3 (ix2 (0 : Fin 1) q) = x3 (ix2 (3 : Fin 8) q) :=
  biasRow 3 (by omega) inb_S8x128_S1x128_3_0 x3 q
theorem bRow4_apply (x3 : Vec Ideal S8x128 .f32) (q : Fin 128) : bRow4 x3 (ix2 (0 : Fin 1) q) = x3 (ix2 (4 : Fin 8) q) :=
  biasRow 4 (by omega) inb_S8x128_S1x128_4_0 x3 q
theorem bRow5_apply (x3 : Vec Ideal S8x128 .f32) (q : Fin 128) : bRow5 x3 (ix2 (0 : Fin 1) q) = x3 (ix2 (5 : Fin 8) q) :=
  biasRow 5 (by omega) inb_S8x128_S1x128_5_0 x3 q
theorem bRow6_apply (x3 : Vec Ideal S8x128 .f32) (q : Fin 128) : bRow6 x3 (ix2 (0 : Fin 1) q) = x3 (ix2 (6 : Fin 8) q) :=
  biasRow 6 (by omega) inb_S8x128_S1x128_6_0 x3 q
theorem bRow7_apply (x3 : Vec Ideal S8x128 .f32) (q : Fin 128) : bRow7 x3 (ix2 (0 : Fin 1) q) = x3 (ix2 (7 : Fin 8) q) :=
  biasRow 7 (by omega) inb_S8x128_S1x128_7_0 x3 q

/-- The type column passes through a shape cast to its own shape. -/
theorem typeCol_eq (x1 : Vec Ideal S4096x1 .i32) : k0_pay4 x1 = x1 := shapeCast_self x1 _

section Levels
variable (x0 : Vec Ideal S4096x128 .f32) (x1 : Vec Ideal S4096x1 .i32) (x2 : Vec Ideal S128x1024 .bf16) (x3 : Vec Ideal S8x128 .f32)
  (p : Fin 4096) (q : Fin 128)

/-- The row's type word. -/
abbrev word : BitVec 32 := x1 (ix2 p (0 : Fin 1))

theorem level0_apply : level0 (F := Ideal) (ix2 p q) = 0 := by
  show Ideal.ofBits .f32 0x00000000#32 = 0
  exact Ideal.ofBits_zero_f32

theorem level1_apply : level1 x0 x1 x2 x3 (ix2 p q)
    = level0 (F := Ideal) (ix2 p q) + (proj x0 x2 0 p q * selector (word x1 p) 0#32 + selector (word x1 p) 0#32 * x3 (ix2 (0 : Fin 8) q)) := by
  unfold level1 k0_pay7
  refine (step_apply _ _ _ _ p q).trans ?_
  rw [slice_lo x0 x2 0 0 (by omega) _ rfl, bRow0_apply, typeCol_eq]
  rfl

theorem level2_apply : level2 x0 x1 x2 x3 (ix2 p q)
    = level1 x0 x1 x2 x3 (ix2 p q) + (proj x0 x2 1 p q * selector (word x1 p) 1#32 + selector (word x1 p) 1#32 * x3 (ix2 (1 : Fin 8) q)) := by
  unfold level2 k0_pay9 k0_pay8
  refine (step_apply _ _ _ _ p q).trans ?_
  rw [slice_lo x0 x2 1 128 (by omega) _ rfl, bRow1_apply, typeCol_eq]
  rfl

theorem level3_apply : level3 x0 x1 x2 x3 (ix2 p q)
    = level2 x0 x1 x2 x3 (ix2 p q) + (proj x0 x2 2 p q * selector (word x1 p) 2#32 + selector (word x1 p) 2#32 * x3 (ix2 (2 : Fin 8) q)) := by
  unfold level3 k0_pay10
  refine (step_apply _ _ _ _ p q).trans ?_
  rw [slice_lo x0 x2 2 256 (by omega) _ rfl, bRow2_apply, typeCol_eq]
  rfl

theorem level4_apply : level4 x0 x1 x2 x3 (ix2 p q)
    = level3 x0 x1 x2 x3 (ix2 p q) + (proj x0 x2 3 p q * selector (word x1 p) 3#32 + selector (word x1 p) 3#32 * x3 (ix2 (3 : Fin 8) q)) := by
  unfold level4 k0_pay11
  refine (step_apply _ _ _ _ p q).trans ?_
  rw [slice_lo x0 x2 3 384 (by omega) _ rfl, bRow3_apply, typeCol_eq]
  rfl

theorem level5_apply : level5 x0 x1 x2 x3 (ix2 p q)
    = level4 x0 x1 x2 x3 (ix2 p q) + (proj x0 x2 4 p q * selector (word x1 p) 4#32 + selector (word x1 p) 4#32 * x3 (ix2 (4 : Fin 8) q)) := by
  unfold level5 k0_pay13
  refine (step_apply _ _ _ _ p q).trans ?_
  rw [slice_hi x0 x2 4 0 (by omega) _ rfl, bRow4_apply, typeCol_eq]
  rfl

theorem level6_apply : level6 x0 x1 x2 x3 (ix2 p q)
    = level5 x0 x1 x2 x3 (ix2 p q) + (proj x0 x2 5 p q * selector (word x1 p) 5#32 + selector (word x1 p) 5#32 * x3 (ix2 (5 : Fin 8) q)) := by
  unfold level6 k0_pay14
  refine (step_apply _ _ _ _ p q).trans ?_
  rw [slice_hi x0 x2 5 128 (by omega) _ rfl, bRow5_apply, typeCol_eq]
  rfl

theorem level7_apply : level7 x0 x1 x2 x3 (ix2 p q)
    = level6 x0 x1 x2 x3 (ix2 p q) + (proj x0 x2 6 p q * selector (word x1 p) 6#32 + selector (word x1 p) 6#32 * x3 (ix2 (6 : Fin 8) q)) := by
  unfold level7 k0_pay1 k0_pay16 k0_pay15
  refine (step_apply _ _ _ _ p q).trans ?_
  rw [slice_hi x0 x2 6 256 (by omega) _ rfl, bRow6_apply, typeCol_eq]
  rfl

theorem level8_apply : level8 x0 x1 x2 x3 (ix2 p q)
    = level7 x0 x1 x2 x3 (ix2 p q) + (proj x0 x2 7 p q * selector (word x1 p) 7#32 + selector (word x1 p) 7#32 * x3 (ix2 (7 : Fin 8) q)) := by
  unfold level8 k0_pay2
  refine (step_apply _ _ _ _ p q).trans ?_
  rw [slice_hi x0 x2 7 384 (by omega) _ rfl, bRow7_apply, typeCol_eq]
  rfl

/-- The block's entry is the specification's chain over the eight projections, bias rows and selectors. -/
theorem level8_chain : level8 x0 x1 x2 x3 (ix2 p q)
    = chain (fun t => proj x0 x2 t p q) (fun t => x3 (ix2 t q)) (fun t => selector (word x1 p) (BitVec.ofNat 32 t.val)) := by
  rw [level8_apply, level7_apply, level6_apply, level5_apply, level4_apply, level3_apply, level2_apply, level1_apply, level0_apply]
  rfl

/-- For a type word in range the selectors are 1 at the word's type and 0 at the seven others. -/
theorem selector_onehot (w : BitVec 32) (h : w.toNat < 8) :
    (fun t : Fin 8 => selector w (BitVec.ofNat 32 t.val))
      = fun t : Fin 8 => if t = (⟨w.toNat % 8, Nat.mod_lt _ (by decide)⟩ : Fin 8) then 1 else 0 := by
  funext t
  rw [selector_eq]
  have ht := t.isLt
  have hiff : w = BitVec.ofNat 32 t.val ↔ t = (⟨w.toNat % 8, Nat.mod_lt _ (by decide)⟩ : Fin 8) := by
    constructor
    · intro e
      refine Fin.ext ?_
      have := congrArg BitVec.toNat e
      rw [BitVec.toNat_ofNat] at this
      show t.val = w.toNat % 8
      omega
    · intro e
      have e' : t.val = w.toNat % 8 := congrArg Fin.val e
      refine BitVec.eq_of_toNat_eq ?_
      rw [BitVec.toNat_ofNat]
      omega
  by_cases hw : w = BitVec.ofNat 32 t.val
  · rw [if_pos hw, if_pos (hiff.1 hw)]
  · rw [if_neg hw, if_neg (fun e => hw (hiff.2 e))]

/-- THE BLOCK'S ENTRY for a row whose type is in range: its own projection plus its own bias. -/
theorem level8_entry (h : (word x1 p).toNat < 8) : level8 x0 x1 x2 x3 (ix2 p q)
    = proj x0 x2 (⟨(word x1 p).toNat % 8, Nat.mod_lt _ (by decide)⟩ : Fin 8) p q
      + x3 (ix2 (⟨(word x1 p).toNat % 8, Nat.mod_lt _ (by decide)⟩ : Fin 8) q) := by
  rw [level8_chain, selector_onehot (word x1 p) h]
  exact chain_select _ _ _

end Levels

end Cert.KernelIdeal.Block

end
-- ==== Proof.KernelArray.lean ====
/-
  From one grid point's block to the whole result array.

  Grid point `t` (of 32) stages rows `4096 t … 4096 t + 4095` of `x` and of the type column, the whole re-laid weight
  block and the whole bias block, and writes back rows `4096 t …` of the result. The type column is `types`
  reshaped to one column; the weight block is `W` with the contracted axis first and the (type, output) pair flattened,
  `w[k, 128 t + o] = W[t, o, k]`, its change of float format the identity. So what point `t` writes back is block `t`
  of the specification's array (the block's entry for a row whose type is in range is that row's own projection
  plus its own bias), the 32 blocks tile the array, and the array after the run is the specification.
-/
import proofs.«427867_j55705725829586_3_alg».proof.Proof.Gen.KernelIdeal.Value
import proofs.«427867_j55705725829586_3_alg».proof.Proof.KernelEntry
import Idealize.ShloMosaic.Lib.StableHlo.Run
import Idealize.ShloMosaic.Lib.Pipeline.Value

set_option maxRecDepth 16384

noncomputable section

open scoped BigOperators

namespace Cert.KernelIdeal.Whole

open Cert.KernelIdeal Cert.KernelIdeal.Gen Cert.KernelIdeal.Block Idealize.ShloMosaic Idealize.ShloMosaic.TcCoe Idealize.SL.Sem
open Idealize.ShloMosaic.ValueIdx Cert.TypedProjection
open Idealize.ShloMosaic.Pipeline (Dat)

variable (m : (ℓ : Loc nD τ sig) → Buf (Elt Ideal) ℓ) (ρ : Dev nD → PrngReg)

/-- The printed index maps, decided once over the 32 grid points: windows 0, 1 and 4 move one block of rows per point,
    windows 2 and 3 stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 32 := by
  have h := t.isLt
  have hN : cfg0.N = 32 := N_0
  omega

/-- Row `p` of point `t`'s block, as a row of the array. -/
def rowAt (t : Fin cfg0.N) (p : Fin 4096) : Fin 131072 := ⟨t.val * 4096 + p.val, by have := t_lt t; have := p.isLt; omega⟩

/-! ## The host operations before the region -/

/-- The type column the region finds: `types` as one column. -/
theorem typeCol_entry (c : Dev nD) :
    (V m c main_v0 : S131072x1.Idx → BitVec 32) = shapeCast S131072x1 (m ((c : Thread nD τ).loc main_arg1)) shapeCasts_S131072_S131072x1 := by
  dsimp only [Gen.V, Gen.hostOps0]
  after_results
  rfl

/-- The weight block the region finds: `W` transposed to (in, type, out), flattened to (in, type·out), narrowed. -/
theorem weights_entry (c : Dev nD) :
    (V m c main_v3 : Vec Ideal S128x1024 .bf16)
      = truncf (F := Ideal) .bf16 (shapeCast S128x1024 (transpose S128x8x128 [2, 0, 1] (m ((c : Thread nD τ).loc main_arg2))
          transposes_S8x128x128_S128x8x128_2_0_1) shapeCasts_S128x8x128_S128x1024) bitsLt_bf16_f32 := by
  dsimp only [Gen.V, Gen.hostOps0]
  after_results
  rfl

/-- A vector as one column, at row `r`. -/
theorem column_apply {α : Type} (x : S131072.Idx → α) (r : Fin 131072) :
    shapeCast S131072x1 x shapeCasts_S131072_S131072x1 (ix2 r (0 : Fin 1)) = x (ix1 r) :=
  shapeCast_apply x shapeCasts_S131072_S131072x1 (ix2 r (0 : Fin 1)) (ix1 r) (by
    rw [Shape.rowMajor_val_one, Shape.rowMajor_val_two]
    show r.val = r.val * 1 + 0
    omega)

/-- The re-laid weights at `(k, 128 t + o)` are `W[t, o, k]`. -/
theorem relaid_apply {α : Type} (W : S8x128x128.Idx → α) (k : Fin 128) (t : Fin 8) (o : Fin 128) (h : t.val * 128 + o.val < 1024) :
    shapeCast S128x1024 (transpose S128x8x128 [2, 0, 1] W transposes_S8x128x128_S128x8x128_2_0_1) shapeCasts_S128x8x128_S128x1024
        (ix2 k (⟨t.val * 128 + o.val, h⟩ : Fin 1024))
      = W (ix3 t o k) := by
  refine (shapeCast_apply _ shapeCasts_S128x8x128_S128x1024 (ix2 k (⟨t.val * 128 + o.val, h⟩ : Fin 1024)) (ix3 k t o) (by
    rw [Shape.rowMajor_val_three, Shape.rowMajor_val_two]
    show (k.val * 8 + t.val) * 128 + o.val = k.val * 1024 + (t.val * 128 + o.val)
    omega)).trans ?_
  exact transpose_apply [2, 0, 1] W transposes_S8x128x128_S128x8x128_2_0_1 (ix3 k t o) (ix3 t o k) (fun b => match b with
    | ⟨0, _⟩ => rfl
    | ⟨1, _⟩ => rfl
    | ⟨2, _⟩ => rfl)

/-! ## The windows' blocks at a point, over literal types -/

abbrev xblk (c : Dev nD) (t : Fin cfg0.N) : Vec Ideal S4096x128 .f32 := iblk m c 0 t
abbrev tblk (c : Dev nD) (t : Fin cfg0.N) : Vec Ideal S4096x1 .i32 := iblk m c 1 t
abbrev wblk (c : Dev nD) (t : Fin cfg0.N) : Vec Ideal S128x1024 .bf16 := iblk m c 2 t
abbrev bblk (c : Dev nD) (t : Fin cfg0.N) : Vec Ideal S8x128 .f32 := iblk m c 3 t

theorem xblk_apply (c : Dev nD) (t : Fin cfg0.N) (p : Fin 4096) (k : Fin 128) :
    xblk m c t (ix2 p k) = m ((c : Thread nD τ).loc main_arg0) (ix2 (rowAt t p) k) := by
  obtain ⟨e0, e1, -⟩ := idx_facts t
  show V m c main_arg0 (((cfg0.win 0).blk t).view.emb (ix2 p k)) = _
  refine (congrFun (V_main_arg0 m c) _).trans (congrArg _ (funext fun a => Fin.ext ?_))
  match a with
  | ⟨0, _⟩ => show win0_0.index t (0 : Fin 2) * 4096 + 1 * p.val = t.val * 4096 + p.val; rw [e0]; omega
  | ⟨1, _⟩ => show win0_0.index t (1 : Fin 2) * 128 + 1 * k.val = k.val; rw [e1]; omega

theorem tblk_apply (c : Dev nD) (t : Fin cfg0.N) (p : Fin 4096) :
    tblk m c t (ix2 p (0 : Fin 1)) = m ((c : Thread nD τ).loc main_arg1) (ix1 (rowAt t p)) := by
  obtain ⟨-, -, e0, e1, -⟩ := idx_facts t
  show V m c main_v0 (((cfg0.win 1).blk t).view.emb (ix2 p (0 : Fin 1))) = _
  have he : ((cfg0.win 1).blk t).view.emb (ix2 p (0 : Fin 1)) = ix2 (rowAt t p) (0 : Fin 1) := funext fun a => Fin.ext (by
    match a with
    | ⟨0, _⟩ => show win0_1.index t (0 : Fin 2) * 4096 + 1 * p.val = t.val * 4096 + p.val; rw [e0]; omega
    | ⟨1, _⟩ => show win0_1.index t (1 : Fin 2) * 1 + 1 * 0 = 0; rw [e1])
  rw [he]
  exact (congrFun (typeCol_entry m c) _).trans (column_apply _ _)

theorem wblk_apply (c : Dev nD) (t : Fin cfg0.N) (k : Fin 128) (s : Fin 8) (o : Fin 128) (h : s.val * 128 + o.val < 1024) :
    wblk m c t (ix2 k (⟨s.val * 128 + o.val, h⟩ : Fin 1024)) = m ((c : Thread nD τ).loc main_arg2) (ix3 s o k) := by
  obtain ⟨-, -, -, -, e0, e1, -⟩ := idx_facts t
  show V m c main_v3 (((cfg0.win 2).blk t).view.emb (ix2 k (⟨s.val * 128 + o.val, h⟩ : Fin 1024))) = _
  have he : ((cfg0.win 2).blk t).view.emb (ix2 k (⟨s.val * 128 + o.val, h⟩ : Fin 1024)) = ix2 k (⟨s.val * 128 + o.val, h⟩ : Fin 1024) :=
    funext fun a => Fin.ext (by
      match a with
      | ⟨0, _⟩ => show win0_2.index t (0 : Fin 2) * 128 + 1 * k.val = k.val; rw [e0]; omega
      | ⟨1, _⟩ => show win0_2.index t (1 : Fin 2) * 1024 + 1 * (s.val * 128 + o.val) = s.val * 128 + o.val; rw [e1]; omega)
  rw [he]
  exact (congrFun (weights_entry m c) _).trans (relaid_apply _ k s o h)

theorem bblk_apply (c : Dev nD) (t : Fin cfg0.N) (s : Fin 8) (q : Fin 128) :
    bblk m c t (ix2 s q) = m ((c : Thread nD τ).loc main_arg3) (ix2 s q) := by
  obtain ⟨-, -, -, -, -, -, e0, e1, -⟩ := idx_facts t
  show V m c main_arg3 (((cfg0.win 3).blk t).view.emb (ix2 s q)) = _
  refine (congrFun (V_main_arg3 m c) _).trans (congrArg _ (funext fun a => Fin.ext ?_))
  match a with
  | ⟨0, _⟩ => show win0_3.index t (0 : Fin 2) * 8 + 1 * s.val = s.val; rw [e0]; omega
  | ⟨1, _⟩ => show win0_3.index t (1 : Fin 2) * 128 + 1 * q.val = q.val; rw [e1]; omega

/-! ## What a point writes back, and the array -/

/-- The specification of the four argument arrays as launched. -/
abbrev spec (c : Dev nD) : S131072x128.Idx → EReal :=
  result (m ((c : Thread nD τ).loc main_arg0)) (m ((c : Thread nD τ).loc main_arg1)) (m ((c : Thread nD τ).loc main_arg2))
    (m ((c : Thread nD τ).loc main_arg3))

/-- WHAT POINT `t` WRITES BACK is block `t` of the specification. -/
theorem flushed_eq (c : Dev nD) (hr : TypesInRange (m ((c : Thread nD τ).loc main_arg1))) (t : Fin cfg0.N) :
    (dats m 0 c).flushed 4 t = ((cfg0.win 4).blk t).view.read (Elt Ideal) (spec m c) := by
  rw [Cert.KernelIdeal.Value.flushed4_A, out_eq]
  obtain ⟨-, -, -, -, -, -, -, -, e0, e1⟩ := idx_facts t
  funext j
  obtain ⟨p, q, rfl⟩ : ∃ (p : Fin 4096) (q : Fin 128), j = ix2 p q := ⟨j 0, j 1, eq_ix2 j⟩
  show level8 (xblk m c t) (tblk m c t) (wblk m c t) (bblk m c t) (ix2 p q) = spec m c (((cfg0.win 4).blk t).view.emb (ix2 p q))
  have he : ((cfg0.win 4).blk t).view.emb (ix2 p q) = ix2 (rowAt t p) q := funext fun a => Fin.ext (by
    match a with
    | ⟨0, _⟩ => show win0_4.index t (0 : Fin 2) * 4096 + 1 * p.val = t.val * 4096 + p.val; rw [e0]; omega
    | ⟨1, _⟩ => show win0_4.index t (1 : Fin 2) * 128 + 1 * q.val = q.val; rw [e1]; omega)
  have hw : tblk m c t (ix2 p (0 : Fin 1)) = m ((c : Thread nD τ).loc main_arg1) (ix1 (rowAt t p)) := tblk_apply m c t p
  have hlt : (tblk m c t (ix2 p (0 : Fin 1))).toNat < 8 := by rw [hw]; exact hr _
  rw [level8_entry (xblk m c t) (tblk m c t) (wblk m c t) (bblk m c t) p q hlt, he]
  have hs : (⟨(tblk m c t (ix2 p (0 : Fin 1))).toNat % 8, Nat.mod_lt _ (by decide)⟩ : Fin 8)
      = typeOf (m ((c : Thread nD τ).loc main_arg1)) (rowAt t p) := Fin.ext (by
    show (tblk m c t (ix2 p (0 : Fin 1))).toNat % 8 = (m ((c : Thread nD τ).loc main_arg1) (ix1 (rowAt t p))).toNat % 8
    rw [hw])
  show proj (xblk m c t) (wblk m c t) (⟨(tblk m c t (ix2 p (0 : Fin 1))).toNat % 8, Nat.mod_lt _ (by decide)⟩ : Fin 8) p q
      + bblk m c t (ix2 (⟨(tblk m c t (ix2 p (0 : Fin 1))).toNat % 8, Nat.mod_lt _ (by decide)⟩ : Fin 8) q)
    = entry (m ((c : Thread nD τ).loc main_arg0)) (m ((c : Thread nD τ).loc main_arg1)) (m ((c : Thread nD τ).loc main_arg2))
        (m ((c : Thread nD τ).loc main_arg3)) (rowAt t p) q
  rw [hs, bblk_apply]
  unfold proj entry
  refine congrArg (· + _) (Finset.sum_congr rfl fun k _ => ?_)
  rw [xblk_apply, wblk_apply]

/-- An index of the array is in point `t`'s block iff each coordinate is in the block's range on its axis. -/
theorem mem_blk (t : Fin cfg0.N) (i : S131072x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v4).slice (win0_4.rect t)).set ↔ _
  rw [View.set_slice_whole, Rect.mem_set_unit]
  exact Iff.rfl

/-- The 32 blocks cover the array: row `r` is in the block of point `r / 4096`. -/
theorem cover (i : S131072x128.Idx) : ∃ t : Fin cfg0.N, (cfg0.win 4).flush t = true ∧ i ∈ ((cfg0.win 4).blk t).view.set := by
  have hi0 : (i 0).val < 131072 := (i 0).isLt
  have hi1 : (i 1).val < 128 := (i 1).isLt
  have hN : cfg0.N = 32 := N_0
  let t : Fin cfg0.N := ⟨(i 0).val / 4096, by rw [hN]; omega⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 4096 ≤ (i 0).val ∧ (i 0).val < win0_4.index t (0 : Fin 2) * 4096 + 4096
    rw [e0]
    show (i 0).val / 4096 * 4096 ≤ (i 0).val ∧ (i 0).val < (i 0).val / 4096 * 4096 + 4096
    omega
  | ⟨1, _⟩ =>
    show win0_4.index t (1 : Fin 2) * 128 ≤ (i 1).val ∧ (i 1).val < win0_4.index t (1 : Fin 2) * 128 + 128
    rw [e1]
    omega

/-- THE ARRAY after the run is the specification. -/
theorem final (c : Dev nD) (hr : TypesInRange (m ((c : Thread nD τ).loc main_arg1))) :
    (dats m 0 c).arrAt 4 cfg0.N = spec m c :=
  (dats m 0 c).arrAt_eq_of_cover 4 (spec m c) (fun t _ => flushed_eq m c hr t) (cover)

/-- The run, read: the result array at the specification of the arguments, the arguments unchanged. -/
theorem run (hr : ∀ c : Dev nD, TypesInRange (m ((c : Thread nD τ).loc main_arg1))) :
    θ_run defs (onTc (τ := τ) (main (F := Ideal))) ⟨m, fun _ => 0, ρ⟩ fun r => ∀ c : Dev nD,
      r.2.mem ((c : Thread nD τ).loc main_v4) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hr c)), (h c).2⟩) (Cert.KernelIdeal.Value.run_blocks m ρ)

end Cert.KernelIdeal.Whole

end
-- ==== Proof.lean ====
/-
  A per-row typed affine map: `out[r, :] = W[types[r]] · x[r, :] + b[types[r], :]`, eight types, 131072 rows of 128.

  The reference forms all eight projections of every row by one contraction, picks each row's own with
  `take_along_axis` and adds the row's own bias row. The kernel walks the rows in 32 blocks of 4096; per block it
  forms the eight projections four at a time (two 128 × 512 halves of the weights re-laid as a 128 × 1024 block) and
  adds, onto a zero block, each projection and each bias row times a 0/1 selector of the row's type.

  Precondition. The float inputs are finite and every type is in `0 … 7`. The second part is an added conjunct: for a
  type outside `-8 … 7` the reference's gather is out of range (its result is the fill value), and for a negative type
  in range the reference wraps it while the kernel selects nothing; the claim is false there.

  Over the extended reals the two programs agree under that precondition: `0 · y = 0` for every `y`, `1 · y = y`, and
  `0` is neutral for `+`, so the kernel's eight-term masked sum is the one selected term; the change of float format
  is the identity and both matrix products are the plain sum over the 128 shared coordinates. No finiteness is used.
  `preserves` is trivial: the idealization rewrote nothing.

  Modules: Spec (the common function and the masked-sum law), PreDecode (the types' range from the precondition),
  KernelBlock / KernelEntry / KernelArray (the kernel's block, its entry, the whole array), RefGather / RefValue
  (the reference's gathers and its result). RefRun and RefRead are patched copies of two generated modules.
-/
import proofs.«427867_j55705725829586_3_alg».proof.Defs
import proofs.«427867_j55705725829586_3_alg».proof.Proof.Gen.Kernel
import proofs.«427867_j55705725829586_3_alg».proof.Proof.Gen.Kernel.Skeleton
import proofs.«427867_j55705725829586_3_alg».proof.Proof.Gen.Kernel.Launch
import proofs.«427867_j55705725829586_3_alg».proof.Proof.Gen.Kernel.Points
import proofs.«427867_j55705725829586_3_alg».proof.Proof.Gen.Kernel.Frame
import proofs.«427867_j55705725829586_3_alg».proof.Proof.Gen.KernelIdeal
import proofs.«427867_j55705725829586_3_alg».proof.Proof.Gen.KernelIdeal.Skeleton
import proofs.«427867_j55705725829586_3_alg».proof.Proof.Gen.KernelIdeal.Launch
import proofs.«427867_j55705725829586_3_alg».proof.Proof.Gen.KernelIdeal.Points
import proofs.«427867_j55705725829586_3_alg».proof.Proof.Gen.KernelIdeal.Frame
import proofs.«427867_j55705725829586_3_alg».proof.Proof.Gen.ReferenceIdeal
import proofs.«427867_j55705725829586_3_alg».proof.Proof.Gen.Pre_finite_inputs
import proofs.«427867_j55705725829586_3_alg».proof.Proof.Gen.KernelIdeal.Value
import proofs.«427867_j55705725829586_3_alg».proof.Proof.RefRun
import proofs.«427867_j55705725829586_3_alg».proof.Proof.RefRead
import proofs.«427867_j55705725829586_3_alg».proof.Proof.PreDecode
import proofs.«427867_j55705725829586_3_alg».proof.Proof.RefValue
import proofs.«427867_j55705725829586_3_alg».proof.Proof.KernelArray
import Idealize.ShloMosaic.Adequacy
import Idealize.ShloMosaic.Init

noncomputable section

namespace Cert.Proof

open Idealize.ShloMosaic Idealize.ShloMosaic.TcCoe Idealize.SL.Sem Cert.TypedProjection

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the specification of the arguments in their result array: the kernel block by
    block, the reference by its gathers, each because every row's type is one of the eight. -/
theorem algebraic : Cert.algebraic_KernelIdeal_ReferenceIdeal := by
  intro m ρ m' ρ' hpre hagree
  have hr : ∀ c : Dev Cert.KernelIdeal.nD,
      TypesInRange (m ((c.tc : Thread Cert.KernelIdeal.nD Cert.KernelIdeal.τ).loc Cert.KernelIdeal.main_arg1)) :=
    fun c => types_in_range _ _ _ _ (hpre c)
  refine ⟨fun c => Cert.KernelIdeal.Whole.spec m c, Cert.KernelIdeal.Whole.run m ρ hr, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2]
  exact (Cert.ReferenceIdeal.ReadP.val_main_v11_eq _ _ _ _).trans
    (Cert.ReferenceIdeal.RefValue.reference_eq _ _ _ _ (hr c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
